-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x512 : Shape := ⟨2, ![512, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S128x512 .f32) (main_arg1 : FVec F S128x512 .f32) (main_arg2 : FVec F S512x512 .f32) (main_arg3 : FVec F S512x512 .f32) (main_arg4 : IVec S512x512 1) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S128x512 : Shape := ⟨2, ![128, 512]⟩
abbrev S512x512 : Shape := ⟨2, ![512, 512]⟩
abbrev S_ : Shape := ⟨0, ![]⟩
abbrev S32x128 : Shape := ⟨2, ![32, 128]⟩
abbrev S128x128 : Shape := ⟨2, ![128, 128]⟩
abbrev S32x1x128 : Shape := ⟨3, ![32, 1, 128]⟩
abbrev S1x128x128 : Shape := ⟨3, ![1, 128, 128]⟩
abbrev S32x128x128 : Shape := ⟨3, ![32, 128, 128]⟩

abbrev nBuf : Space → Nat
  | .hbm => 13
  | .vmem => 14
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S512x512, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S128x512, .f32⟩
  | .hbm, ⟨12, _⟩ => ⟨S128x512, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bcast_S_S512x512 : S_.BroadcastsInDim S512x512 (![] : Fin 0 → Fin S512x512.rank)
  inb_S32x128_S32x128_0_0 : ∀ a, (![0, 0] : Fin 2 → Nat) a + S32x128.size a ≤ S32x128.size a
  h_S32x128 : 0 < S32x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  shapeCasts_S32x128_S32x128 : S32x128.ShapeCasts S32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S128x512.size a
  hwx0_0 : ∀ i : grid0.Coords, EltTy.bits .f32 = 32 ∨ (Rect.block (s := S128x512) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x512.size a
  hwx0_1 : ∀ i : grid0.Coords, EltTy.bits .f32 = 32 ∨ (Rect.block (s := S128x512) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x512.size a
  hwx0_2 : ∀ i : grid0.Coords, EltTy.bits .f32 = 32 ∨ (Rect.block (s := S512x512) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x512.size a
  hwx0_3 : ∀ i : grid0.Coords, EltTy.bits .f32 = 32 ∨ (Rect.block (s := S512x512) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S512x512.size a
  hwx0_4 : ∀ i : grid0.Coords, EltTy.bits .f32 = 32 ∨ (Rect.block (s := S512x512) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S128x512.size a
  hwx0_5 : ∀ i : grid0.Coords, EltTy.bits .f32 = 32 ∨ (Rect.block (s := S128x512) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S128x512.size a
  hwx0_6 : ∀ i : grid0.Coords, EltTy.bits .f32 = 32 ∨ (Rect.block (s := S128x512) S32x128.size (cc0_transform_6 i) (hinb0_6 i)).WholeWords (EltTy.packing .f32)

variable [Facts₀]

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S32x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S32x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512 : Shape := ⟨2, ![128, 512]⟩
abbrev S512x512 : Shape := ⟨2, ![512, 512]⟩
abbrev S_ : Shape := ⟨0, ![]⟩
abbrev S128x1x512 : Shape := ⟨3, ![128, 1, 512]⟩
abbrev S1x512x512 : Shape := ⟨3, ![1, 512, 512]⟩
abbrev S128x512x512 : Shape := ⟨3, ![128, 512, 512]⟩

abbrev nBuf : Space → Nat
  | .hbm => 44
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S512x512, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S128x1x512, .f32⟩
  | .hbm, ⟨12, _⟩ => ⟨S128x1x512, .f32⟩
  | .hbm, ⟨13, _⟩ => ⟨S1x512x512, .f32⟩
  | .hbm, ⟨14, _⟩ => ⟨S128x512x512, .f32⟩
  | .hbm, ⟨15, _⟩ => ⟨S128x512x512, .f32⟩
  | .hbm, ⟨16, _⟩ => ⟨S128x512x512, .f32⟩
  | .hbm, ⟨17, _⟩ => ⟨S128x512x512, .f32⟩
  | .hbm, ⟨18, _⟩ => ⟨S128x512x512, .f32⟩
  | .hbm, ⟨19, _⟩ => ⟨S1x512x512, .f32⟩
  | .hbm, ⟨20, _⟩ => ⟨S128x512x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S1x512x512, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S1x512x512, .f32⟩
  | .hbm, ⟨35, _⟩ => ⟨S128x512x512, .f32⟩
  | .hbm, ⟨36, _⟩ => ⟨S128x512x512, .f32⟩
  | .hbm, ⟨37, _⟩ => ⟨S_, .f32⟩
  | .hbm, ⟨38, _⟩ => ⟨S128x512, .f32⟩
  | .hbm, ⟨39, _⟩ => ⟨S1x512x512, .f32⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S128x512_S128x1x512_0_2 : S128x512.BroadcastsInDim S128x1x512 (![0, 2] : Fin 2 → Fin S128x1x512.rank)
  bcast_S512x512_S1x512x512_1_2 : S512x512.BroadcastsInDim S1x512x512 (![1, 2] : Fin 2 → Fin S1x512x512.rank)
  bcast_S128x1x512_S128x512x512_0_1_2 : S128x1x512.BroadcastsInDim S128x512x512 (![0, 1, 2] : Fin 3 → Fin S128x512x512.rank)
  bcast_S1x512x512_S128x512x512_0_1_2 : S1x512x512.BroadcastsInDim S128x512x512 (![0, 1, 2] : Fin 3 → Fin S128x512x512.rank)
  reducesTo_S128x512x512_S128x512_d2 : S128x512x512.ReducesTo [2] S128x512
  h_S_ : 0 < S_.numel

variable [Facts₀]

class Facts : Prop extends Facts₀ where

variable [Facts]
-- ==== Proof.Shear.lean ====
/-
  A bank of 512 × 512 three-shear ("lifting") rotations applied to 128 complex rows and summed.

  For a row b and an output column k, every input column i contributes one rotation of the complex number
  (xr, xi) = (x_re[b,i], x_im[b,i]) by the angle the tables encode at (k, i), written as three shears with the
  fixed-point coefficients  L = lam[k,i] · 2⁻²⁰  and  G = gam[k,i] · 2⁻²⁰ :
      x₁ = xr + xi · L,    y₁ = xi + x₁ · G,    x₂ = x₁ + y₁ · L,
  and a sign s[k,i] = −1 where the table flags a half turn, +1 elsewhere.  The results are
      out_re[b,k] = Σ_i s[k,i] · x₂(b,k,i),        out_im[b,k] = Σ_i s[k,i] · y₁(b,k,i).

  This module states those two arrays as functions of the five argument arrays over the extended reals, and proves
  the two laws that join the two programs' spellings of them: dividing by 2²⁰ is multiplying by 2⁻²⁰ on every extended
  real (both words are exact powers of two), and a sum over 512 columns is the sum, over four consecutive blocks of
  128 columns, of the blocks' sums (addition of extended reals is commutative and associative; nothing here needs
  the inputs finite).
-/
import Idealize.ShloMosaic.PureOps.Ideal
import Idealize.ShloMosaic.Lib.ValueIdx

noncomputable section

namespace Cert.Shear

open Idealize.ShloMosaic Idealize.ShloMosaic.ValueIdx

/-! ## The scale 2⁻²⁰ -/

/-- The divisor's word denotes 2²⁰. -/
theorem ofBits_two_pow_20 : Ideal.ofBits .f32 0x49800000#32 = ((1048576 : ℝ) : EReal) := by
  simp [Ideal.ofBits, Ideal.ieee, -EReal.coe_mul]; norm_num

/-- The multiplier's word denotes 2⁻²⁰. -/
theorem ofBits_two_pow_neg_20 : Ideal.ofBits .f32 0x35800000#32 = ((1 / 1048576 : ℝ) : EReal) := by
  simp [Ideal.ofBits, Ideal.ieee, -EReal.coe_mul]; norm_num

/-- On every extended real, the quotient by 2²⁰ is the product with 2⁻²⁰. -/
theorem div_two_pow_20 (x : EReal) :
    Ideal.div x (Ideal.ofBits .f32 0x49800000#32) = x * Ideal.ofBits .f32 0x35800000#32 := by
  rw [ofBits_two_pow_20, ofBits_two_pow_neg_20]
  exact Ideal.div_coe (by norm_num) x

/-! ## One rotation -/

/-- The first shear: x₁ = xr + xi · L. -/
def shear1 (xr xi l : EReal) : EReal := xr + xi * l

/-- The second shear: y₁ = xi + x₁ · G. -/
def shear2 (xr xi l g : EReal) : EReal := xi + shear1 xr xi l * g

/-- The third shear: x₂ = x₁ + y₁ · L. -/
def shear3 (xr xi l g : EReal) : EReal := shear1 xr xi l + shear2 xr xi l g * l

/-- The sign a table flag selects: −1 where it is set, +1 where it is not. -/
def sign (b : BitVec 1) : EReal :=
  Scalar.select b (Ideal.ofBits .f32 0xBF800000#32) (Ideal.ofBits .f32 0x3F800000#32)

/-- Column i's contribution to the real part: s · x₂ with both coefficients scaled by 2⁻²⁰. -/
def reTerm (s xr xi lam gam : EReal) : EReal :=
  s * shear3 xr xi (lam * Ideal.ofBits .f32 0x35800000#32) (gam * Ideal.ofBits .f32 0x35800000#32)

/-- Column i's contribution to the imaginary part: s · y₁. -/
def imTerm (s xr xi lam gam : EReal) : EReal :=
  s * shear2 xr xi (lam * Ideal.ofBits .f32 0x35800000#32) (gam * Ideal.ofBits .f32 0x35800000#32)

/-! ## The two result arrays -/

/-- out_re at row b, column k: the sum over the 512 input columns. -/
def outReAt (xr xi : (⟨2, ![128, 512]⟩ : Shape).Idx → EReal) (lam gam : (⟨2, ![512, 512]⟩ : Shape).Idx → EReal)
    (neg : (⟨2, ![512, 512]⟩ : Shape).Idx → BitVec 1) (b : Fin 128) (k : Fin 512) : EReal :=
  ∑ i : Fin 512, reTerm (sign (neg (ix2 k i))) (xr (ix2 b i)) (xi (ix2 b i)) (lam (ix2 k i)) (gam (ix2 k i))

/-- out_im at row b, column k. -/
def outImAt (xr xi : (⟨2, ![128, 512]⟩ : Shape).Idx → EReal) (lam gam : (⟨2, ![512, 512]⟩ : Shape).Idx → EReal)
    (neg : (⟨2, ![512, 512]⟩ : Shape).Idx → BitVec 1) (b : Fin 128) (k : Fin 512) : EReal :=
  ∑ i : Fin 512, imTerm (sign (neg (ix2 k i))) (xr (ix2 b i)) (xi (ix2 b i)) (lam (ix2 k i)) (gam (ix2 k i))

/-- out_re as an array. -/
def outRe (xr xi : (⟨2, ![128, 512]⟩ : Shape).Idx → EReal) (lam gam : (⟨2, ![512, 512]⟩ : Shape).Idx → EReal)
    (neg : (⟨2, ![512, 512]⟩ : Shape).Idx → BitVec 1) : (⟨2, ![128, 512]⟩ : Shape).Idx → EReal :=
  fun j => outReAt xr xi lam gam neg (j 0) (j 1)

/-- out_im as an array. -/
def outIm (xr xi : (⟨2, ![128, 512]⟩ : Shape).Idx → EReal) (lam gam : (⟨2, ![512, 512]⟩ : Shape).Idx → EReal)
    (neg : (⟨2, ![512, 512]⟩ : Shape).Idx → BitVec 1) : (⟨2, ![128, 512]⟩ : Shape).Idx → EReal :=
  fun j => outImAt xr xi lam gam neg (j 0) (j 1)

/-! ## A sum over consecutive blocks -/

/-- A sum over the first n·B naturals is the sum over n consecutive blocks of B of each block's sum. -/
theorem sum_range_blocks {M : Type*} [AddCommMonoid M] (f : ℕ → M) (B : ℕ) :
    ∀ n : ℕ, ∑ i ∈ Finset.range (n * B), f i = ∑ s ∈ Finset.range n, ∑ l ∈ Finset.range B, f (s * B + l)
  | 0 => by simp
  | n + 1 => by
    rw [Nat.succ_mul, Finset.sum_range_add, sum_range_blocks f B n, Finset.sum_range_succ]

/-- A sum over the 512 columns, regrouped as four blocks of 128: the column's term extended by zero past the end
    so that it is a function of every natural. -/
theorem sum_512_as_blocks {M : Type*} [AddCommMonoid M] (g : Fin 512 → M) :
    ∑ i : Fin 512, g i
      = ∑ s ∈ Finset.range 4, ∑ l ∈ Finset.range 128, (fun n : ℕ => if h : n < 512 then g ⟨n, h⟩ else 0) (s * 128 + l) := by
  rw [← sum_range_blocks (fun n : ℕ => if h : n < 512 then g ⟨n, h⟩ else 0) 128 4]
  rw [← Fin.sum_univ_eq_sum_range (fun n : ℕ => if h : n < 512 then g ⟨n, h⟩ else 0) (4 * 128)]
  exact Finset.sum_congr rfl fun i _ => by rw [dif_pos i.isLt]

end Cert.Shear

end
-- ==== Proof.Layout.lean ====
/-
  How one grid step's operands are laid out before they meet.  A step works on 32 rows and 128 output columns against
  128 input columns, in a [32, 128, 128] box indexed (row p, output column q, input column l):
  * a [32, 128] block of x (rows × input columns) is given a unit middle axis and repeated along it, so the box
    holds x[p, l] at (p, q, l), whatever q;
  * a [128, 128] block of a table (output columns × input columns) is given a unit leading axis and repeated along
    it, so the box holds tab[q, l] at (p, q, l), whatever p;
  * summing the box along its last axis leaves, at (p, q), the sum over l of the box's entries (p, q, l).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Shear.Layout

open Idealize.ShloMosaic Idealize.ShloMosaic.ValueIdx

variable {α : Type}

/-- A block of rows, repeated over the output columns: (p, q, l) reads the block at (p, l). -/
theorem rows_apply (v : (⟨2, ![32, 128]⟩ : Shape).Idx → α)
    (h1 : (⟨2, ![32, 128]⟩ : Shape).ShapeCasts ⟨3, ![32, 1, 128]⟩)
    (h2 : (⟨3, ![32, 1, 128]⟩ : Shape).Broadcasts ⟨3, ![32, 128, 128]⟩) (p : Fin 32) (q l : Fin 128) :
    broadcastTo ⟨3, ![32, 128, 128]⟩ (shapeCast ⟨3, ![32, 1, 128]⟩ v h1) h2 (ix3 p q l) = v (ix2 p l) := by
  refine (broadcastTo_apply _ h2 (ix3 p q l) (ix3 p (0 : Fin 1) l) (fun a => ?_)).trans ?_
  · match a with
    | ⟨0, _⟩ => show p.val = if (32 : ℕ) = 1 then 0 else p.val; rw [if_neg (by decide)]
    | ⟨1, _⟩ => show 0 = if (1 : ℕ) = 1 then 0 else q.val; rw [if_pos rfl]
    | ⟨2, _⟩ => show l.val = if (128 : ℕ) = 1 then 0 else l.val; rw [if_neg (by decide)]
  · exact shapeCast_apply v h1 (ix3 p (0 : Fin 1) l) (ix2 p l) (by
      rw [Shape.rowMajor_val_two, Shape.rowMajor_val_three]
      show p.val * 128 + l.val = (p.val * 1 + 0) * 128 + l.val
      omega)

/-- A block of a table, repeated over the rows: (p, q, l) reads the block at (q, l). -/
theorem table_apply (w : (⟨2, ![128, 128]⟩ : Shape).Idx → α)
    (h1 : (⟨2, ![128, 128]⟩ : Shape).ShapeCasts ⟨3, ![1, 128, 128]⟩)
    (h2 : (⟨3, ![1, 128, 128]⟩ : Shape).Broadcasts ⟨3, ![32, 128, 128]⟩) (p : Fin 32) (q l : Fin 128) :
    broadcastTo ⟨3, ![32, 128, 128]⟩ (shapeCast ⟨3, ![1, 128, 128]⟩ w h1) h2 (ix3 p q l) = w (ix2 q l) := by
  refine (broadcastTo_apply _ h2 (ix3 p q l) (ix3 (0 : Fin 1) q l) (fun a => ?_)).trans ?_
  · match a with
    | ⟨0, _⟩ => show 0 = if (1 : ℕ) = 1 then 0 else p.val; rw [if_pos rfl]
    | ⟨1, _⟩ => show q.val = if (128 : ℕ) = 1 then 0 else q.val; rw [if_neg (by decide)]
    | ⟨2, _⟩ => show l.val = if (128 : ℕ) = 1 then 0 else l.val; rw [if_neg (by decide)]
  · exact shapeCast_ab_1ab_apply w h1 (0 : Fin 1) q l

/-- The sum of the box along its input-column axis, at (p, q), over the extended reals. -/
theorem laneSum_apply (src : FVec Ideal ⟨3, ![32, 128, 128]⟩ .f32)
    (h : (⟨3, ![32, 128, 128]⟩ : Shape).Reduces [2] ⟨2, ![32, 128]⟩) (hφ : FKind.Formats .f32)
    (hacc : (0x00000000#32 : BitVec 32) = FKind.add.neutral .f32 hφ) (p : Fin 32) (q : Fin 128) :
    multiReduction .add [2] ⟨2, ![32, 128]⟩ src 0x00000000#32 h hφ hacc (ix2 p q) = ∑ l : Fin 128, src (ix3 p q l) := by
  refine (Ideal.multiReduction_add_single src _ h hφ hacc (ix2 p q)).trans ?_
  refine Finset.sum_congr rfl fun l _ => congrArg src ?_
  funext c
  apply Fin.ext
  match c with
  | ⟨0, _⟩ => rfl
  | ⟨1, _⟩ => rfl
  | ⟨2, _⟩ => rfl

end Cert.Shear.Layout

end
-- ==== Proof.Step.lean ====
/-
  One grid step's arithmetic, entry by entry, over the extended reals.  The step holds a [32, 128] block of x_re and of
  x_im (rows × input columns) and a [128, 128] block of each table (output columns × input columns).  At (row p,
  output column q, input column l) it forms the three shears of (x_re[p,l], x_im[p,l]) with the coefficients
  lam[q,l] · 2⁻²⁰ and gam[q,l] · 2⁻²⁰, multiplies x₂ and y₁ by the sign block's entry at (q, l), and sums each over l:
  the step's two partial sums at (p, q) are sums over the block's 128 input columns of the rotation's two terms.
-/
import proofs.«102555_j7249904795701_1_alg».proof.Proof.Gen.KernelIdeal.Skeleton
import proofs.«102555_j7249904795701_1_alg».proof.Proof.Shear
import proofs.«102555_j7249904795701_1_alg».proof.Proof.Layout

noncomputable section

namespace Cert.KernelIdeal.Step

open Cert.KernelIdeal Cert.KernelIdeal.Gen Idealize.ShloMosaic Idealize.ShloMosaic.ValueIdx
open Cert.Shear Cert.Shear.Layout

variable (xr xi : Vec Ideal S32x128 .f32) (lam gam sg : Vec Ideal S128x128 .f32)

/-- The first shear in the box: x₁ at (p, q, l). -/
theorem shear1_at (p : Fin 32) (q l : Fin 128) :
    k0_pay8 (F := Ideal) xr xi lam (ix3 p q l)
      = shear1 (xr (ix2 p l)) (xi (ix2 p l)) (lam (ix2 q l) * Ideal.ofBits .f32 0x35800000#32) := by
  unfold k0_pay8 k0_pay5 k0_pay6
  dsimp only
  rw [addf_apply, mulf_apply, rows_apply, rows_apply, table_apply]
  rfl

/-- The second shear in the box: y₁ at (p, q, l). -/
theorem shear2_at (p : Fin 32) (q l : Fin 128) :
    k0_pay9 (F := Ideal) xr xi lam gam (ix3 p q l)
      = shear2 (xr (ix2 p l)) (xi (ix2 p l)) (lam (ix2 q l) * Ideal.ofBits .f32 0x35800000#32)
          (gam (ix2 q l) * Ideal.ofBits .f32 0x35800000#32) := by
  unfold k0_pay9 k0_pay5
  dsimp only
  rw [addf_apply, mulf_apply, rows_apply, table_apply, shear1_at]
  rfl

/-- The step's partial sum for the real part at (p, q): over the block's input columns, sign · x₂. -/
theorem rePart_at (p : Fin 32) (q : Fin 128) :
    k0_pay10 (F := Ideal) xr xi lam gam sg (ix2 p q)
      = ∑ l : Fin 128, reTerm (sg (ix2 q l)) (xr (ix2 p l)) (xi (ix2 p l)) (lam (ix2 q l)) (gam (ix2 q l)) := by
  unfold k0_pay10
  dsimp only
  refine (laneSum_apply _ _ _ _ p q).trans ?_
  refine Finset.sum_congr rfl fun l _ => ?_
  unfold k0_pay7 k0_pay6
  dsimp only
  rw [mulf_apply, addf_apply, mulf_apply, table_apply, table_apply, shear1_at, shear2_at, shapeCast_self]
  rfl

/-- The step's partial sum for the imaginary part at (p, q): over the block's input columns, sign · y₁. -/
theorem imPart_at (p : Fin 32) (q : Fin 128) :
    k0_pay11 (F := Ideal) xr xi lam gam sg (ix2 p q)
      = ∑ l : Fin 128, imTerm (sg (ix2 q l)) (xr (ix2 p l)) (xi (ix2 p l)) (lam (ix2 q l)) (gam (ix2 q l)) := by
  unfold k0_pay11
  dsimp only
  refine (laneSum_apply _ _ _ _ p q).trans ?_
  refine Finset.sum_congr rfl fun l _ => ?_
  unfold k0_pay7
  dsimp only
  rw [mulf_apply, table_apply, shear2_at, shapeCast_self]
  rfl

end Cert.KernelIdeal.Step

end
-- ==== Proof.Blocks.lean ====
/-
  Which entries of the whole arrays a grid step sees.  The grid is 4 × 4 × 4, walked row block first and input-column
  block last: step t works on row block t / 16, output-column block (t / 4) mod 4 and input-column block t mod 4.
  Its x blocks are rows 32·(t/16) … of x_re and x_im at input columns 128·(t mod 4) …; its table blocks are rows
  128·((t/4) mod 4) … of lam, gam and the sign array at the same input columns.  The sign array is made before the
  launch from the flag table: −1 where the flag is set, +1 elsewhere.
-/
import proofs.«102555_j7249904795701_1_alg».proof.Proof.Gen.KernelIdeal.Frame.Runs
import proofs.«102555_j7249904795701_1_alg».proof.Proof.Shear
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The x windows' block indices at step t: (t / 16, t mod 4). -/
theorem idx_rows : ∀ t : Fin cfg0.N, win0_0.index t (0 : Fin 2) = t.val / 16 ∧ win0_0.index t (1 : Fin 2) = t.val % 4
    ∧ win0_1.index t (0 : Fin 2) = t.val / 16 ∧ win0_1.index t (1 : Fin 2) = t.val % 4 :=
  (by decide +kernel : ∀ t : Fin grid0.N, _)

/-- The table windows' block indices at step t: ((t / 4) mod 4, t mod 4). -/
theorem idx_tables : ∀ t : Fin cfg0.N, win0_2.index t (0 : Fin 2) = t.val / 4 % 4 ∧ win0_2.index t (1 : Fin 2) = t.val % 4
    ∧ win0_3.index t (0 : Fin 2) = t.val / 4 % 4 ∧ win0_3.index t (1 : Fin 2) = t.val % 4
    ∧ win0_4.index t (0 : Fin 2) = t.val / 4 % 4 ∧ win0_4.index t (1 : Fin 2) = t.val % 4 :=
  (by decide +kernel : ∀ t : Fin grid0.N, _)

/-- Step t's x_re block at (p, l) is x_re at (32·(t/16) + p, 128·(t mod 4) + l). -/
theorem xr_blk (c : Dev nD) (t : Fin cfg0.N) (p : Fin 32) (l : Fin 128) (r : Fin 128) (i : Fin 512)
    (hr : r.val = 32 * (t.val / 16) + p.val) (hi : i.val = 128 * (t.val % 4) + l.val) :
    (iblk m c 0 t : Vec F S32x128 .f32) (ix2 p l) = m ((c : Thread nD τ).loc main_arg0) (ix2 r i) := by
  obtain ⟨e0, e1, -, -⟩ := idx_rows t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 32 + 1 * p.val = r.val; rw [e0, hr]; omega
  | ⟨1, _⟩ => show win0_0.index t (1 : Fin 2) * 128 + 1 * l.val = i.val; rw [e1, hi]; omega

/-- Step t's x_im block at (p, l) is x_im at (32·(t/16) + p, 128·(t mod 4) + l). -/
theorem xi_blk (c : Dev nD) (t : Fin cfg0.N) (p : Fin 32) (l : Fin 128) (r : Fin 128) (i : Fin 512)
    (hr : r.val = 32 * (t.val / 16) + p.val) (hi : i.val = 128 * (t.val % 4) + l.val) :
    (iblk m c 1 t : Vec F S32x128 .f32) (ix2 p l) = m ((c : Thread nD τ).loc main_arg1) (ix2 r i) := by
  obtain ⟨-, -, e0, e1⟩ := idx_rows t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 32 + 1 * p.val = r.val; rw [e0, hr]; omega
  | ⟨1, _⟩ => show win0_1.index t (1 : Fin 2) * 128 + 1 * l.val = i.val; rw [e1, hi]; omega

/-- Step t's lam block at (q, l) is lam at (128·((t/4) mod 4) + q, 128·(t mod 4) + l). -/
theorem lam_blk (c : Dev nD) (t : Fin cfg0.N) (q l : Fin 128) (k i : Fin 512)
    (hk : k.val = 128 * (t.val / 4 % 4) + q.val) (hi : i.val = 128 * (t.val % 4) + l.val) :
    (iblk m c 2 t : Vec F S128x128 .f32) (ix2 q l) = m ((c : Thread nD τ).loc main_arg2) (ix2 k i) := by
  obtain ⟨e0, e1, -, -, -, -⟩ := idx_tables t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 128 + 1 * q.val = k.val; rw [e0, hk]; omega
  | ⟨1, _⟩ => show win0_2.index t (1 : Fin 2) * 128 + 1 * l.val = i.val; rw [e1, hi]; omega

/-- Step t's gam block at (q, l) is gam at (128·((t/4) mod 4) + q, 128·(t mod 4) + l). -/
theorem gam_blk (c : Dev nD) (t : Fin cfg0.N) (q l : Fin 128) (k i : Fin 512)
    (hk : k.val = 128 * (t.val / 4 % 4) + q.val) (hi : i.val = 128 * (t.val % 4) + l.val) :
    (iblk m c 3 t : Vec F S128x128 .f32) (ix2 q l) = m ((c : Thread nD τ).loc main_arg3) (ix2 k i) := by
  obtain ⟨-, -, e0, e1, -, -⟩ := idx_tables t
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 2) * 128 + 1 * q.val = k.val; rw [e0, hk]; omega
  | ⟨1, _⟩ => show win0_3.index t (1 : Fin 2) * 128 + 1 * l.val = i.val; rw [e1, hi]; omega

/-- The sign array the launch finds: at every entry, the sign the flag table's entry selects. -/
theorem sign_arr (m : (ℓ : Loc nD τ sig) → Buf (Elt Ideal) ℓ) (c : Dev nD) :
    (V m c main_v1 : S512x512.Idx → EReal) = fun i => Cert.Shear.sign (m ((c : Thread nD τ).loc main_arg4) i) := by
  dsimp only [V]
  simp only [hostOps0, hostOps0_1, hostOps0_2, List.flatten_cons, List.flatten_nil, List.append_nil, List.cons_append,
    List.nil_append]
  after_results
  funext i
  rfl

/-- Step t's sign block at (q, l) is the sign of the flag at (128·((t/4) mod 4) + q, 128·(t mod 4) + l). -/
theorem sign_blk (m : (ℓ : Loc nD τ sig) → Buf (Elt Ideal) ℓ) (c : Dev nD) (t : Fin cfg0.N) (q l : Fin 128) (k i : Fin 512)
    (hk : k.val = 128 * (t.val / 4 % 4) + q.val) (hi : i.val = 128 * (t.val % 4) + l.val) :
    (iblk m c 4 t : Vec Ideal S128x128 .f32) (ix2 q l) = Cert.Shear.sign (m ((c : Thread nD τ).loc main_arg4) (ix2 k i)) := by
  obtain ⟨-, -, -, -, e0, e1⟩ := idx_tables t
  unfold iblk
  rw [View.read_apply]
  show (V m c main_v1 : S512x512.Idx → EReal) _ = _
  rw [sign_arr m c]
  refine congrArg (fun j => Cert.Shear.sign (m ((c : Thread nD τ).loc main_arg4) j)) (funext fun a => Fin.ext ?_)
  match a with
  | ⟨0, _⟩ => show win0_4.index t (0 : Fin 2) * 128 + 1 * q.val = k.val; rw [e0, hk]; omega
  | ⟨1, _⟩ => show win0_4.index t (1 : Fin 2) * 128 + 1 * l.val = i.val; rw [e1, hi]; omega

end Cert.KernelIdeal.Blocks

end
-- ==== Proof.Fold.lean ====
/-
  What the kernel leaves in its two result arrays.  For a row block and an output-column block, the four consecutive
  grid steps over the input-column blocks share one [32, 128] result block: the first step zeroes it and adds its
  partial sum, each later step adds its own, and the block is written back after the fourth.  So the entry for
  (row b, output column k), which sits at (b mod 32, k mod 128) of the block of run 4·(b/32) + k/128, ends as
      0 + (P₀ + P₁ + P₂ + P₃),
  where P_s is step s's sum over its 128 input columns 128·s … 128·s + 127 of the rotation's term built from x_re and
  x_im at row b and from lam, gam and the sign at row k.  Four blocks of 128 columns are the 512 columns, so this is
  out_re[b, k] (and likewise out_im[b, k]) as the specification states them.
-/
import proofs.«102555_j7249904795701_1_alg».proof.Proof.Gen.KernelIdeal.Value
import proofs.«102555_j7249904795701_1_alg».proof.Proof.Step
import proofs.«102555_j7249904795701_1_alg».proof.Proof.Blocks

noncomputable section

namespace Cert.KernelIdeal.Fold

open Cert.KernelIdeal Cert.KernelIdeal.Gen Idealize.ShloMosaic Idealize.ShloMosaic.TcCoe Idealize.SL.Sem
open Idealize.ShloMosaic.ValueIdx Cert.Shear Cert.KernelIdeal.Step Cert.KernelIdeal.Blocks

variable (m : (ℓ : Loc nD τ sig) → Buf (Elt Ideal) ℓ)

/-! ## The real part -/

/-- Step n's addend to its out_re block: its partial sum, and zero for a number past the grid. -/
def reAdd (c : Dev nD) (n : ℕ) (y : S32x128.Idx) : EReal :=
  if h : n < cfg0.N then
    k0_pay10 (F := Ideal) (iblk m c 0 ⟨n, h⟩) (iblk m c 1 ⟨n, h⟩) (iblk m c 2 ⟨n, h⟩) (iblk m c 3 ⟨n, h⟩) (iblk m c 4 ⟨n, h⟩) y
  else 0

/-- A run's first step leaves zero plus its addend. -/
theorem reset5_apply (c : Dev nD) (b : ℕ) (h : b < cfg0.N) (y : S32x128.Idx) :
    Value.reset5 m c b h y = 0 + reAdd m c b y := by
  unfold Value.reset5 reAdd k0_pay1 k0_pay12 k0_pay3
  rw [dif_pos h]
  dsimp only
  rw [addf_apply, shapeCast_self]
  show Ideal.ofBits .f32 0x00000000#32 + _ = _
  rw [Ideal.ofBits_zero_f32]

/-- A later step leaves what it found plus its addend. -/
theorem step5_apply (c : Dev nD) (n : ℕ) (h : n < cfg0.N) (acc : Vec Ideal S32x128 .f32) (y : S32x128.Idx) :
    Value.step5 m c n h acc y = acc y + reAdd m c n y := by
  unfold Value.step5 reAdd k0_pay1 k0_pay12
  rw [dif_pos h]
  dsimp only
  rw [addf_apply, shapeCast_self]

/-- After a run's four steps the block holds zero plus the four addends. -/
theorem fold5_apply (c : Dev nD) (b : ℕ) (h : b + 3 < cfg0.N) (y : S32x128.Idx) :
    Pipeline.accAt (Value.reset5 m c) (Value.step5 m c) b 3 h y = 0 + ∑ s ∈ Finset.range 4, reAdd m c (b + s) y :=
  Pipeline.accAt_add_apply (ι := S32x128.Idx) (β := EReal) (Value.reset5 m c) (Value.step5 m c) (fun _ => 0) (reAdd m c) b 3
    (fun hb y => reset5_apply m c b hb y) (fun n hn acc y _ _ => step5_apply m c n hn acc y) 3 le_rfl h y

/-- Input column j's term of out_re[b, k], as a function of every natural (zero past the last column). -/
def reCol (c : Dev nD) (b : Fin 128) (k : Fin 512) (j : ℕ) : EReal :=
  if h : j < 512 then
    reTerm (sign (m ((c : Thread nD τ).loc main_arg4) (ix2 k ⟨j, h⟩))) (m ((c : Thread nD τ).loc main_arg0) (ix2 b ⟨j, h⟩)) (m ((c : Thread nD τ).loc main_arg1) (ix2 b ⟨j, h⟩))
      (m ((c : Thread nD τ).loc main_arg2) (ix2 k ⟨j, h⟩)) (m ((c : Thread nD τ).loc main_arg3) (ix2 k ⟨j, h⟩))
  else 0

/-- The addend of the step that works on row b's block, column k's block and input-column block s, at (b, k)'s place
    in the block: the sum of the column terms over input columns 128·s … 128·s + 127. -/
theorem reAdd_at (c : Dev nD) (b : Fin 128) (k : Fin 512) (n s : ℕ) (hn : n < cfg0.N) (p : Fin 32) (q : Fin 128)
    (hp : b.val = 32 * (n / 16) + p.val) (hq : k.val = 128 * (n / 4 % 4) + q.val) (hs : n % 4 = s) :
    reAdd m c n (ix2 p q) = ∑ l ∈ Finset.range 128, reCol m c b k (s * 128 + l) := by
  unfold reAdd
  rw [dif_pos hn]
  refine (rePart_at (iblk m c 0 ⟨n, hn⟩) (iblk m c 1 ⟨n, hn⟩) (iblk m c 2 ⟨n, hn⟩) (iblk m c 3 ⟨n, hn⟩) (iblk m c 4 ⟨n, hn⟩) p q).trans ?_
  refine Eq.trans ?_ (Fin.sum_univ_eq_sum_range (fun l => reCol m c b k (s * 128 + l)) 128)
  refine Finset.sum_congr rfl fun l _ => ?_
  have hl : l.val < 128 := l.isLt
  have hs4 : s < 4 := by omega
  have hj : s * 128 + l.val < 512 := by omega
  unfold reCol
  rw [dif_pos hj]
  have hi : (⟨s * 128 + l.val, hj⟩ : Fin 512).val = 128 * ((⟨n, hn⟩ : Fin cfg0.N).val % 4) + l.val := by
    show s * 128 + l.val = 128 * (n % 4) + l.val
    omega
  rw [xr_blk m c ⟨n, hn⟩ p l b ⟨s * 128 + l.val, hj⟩ hp hi, xi_blk m c ⟨n, hn⟩ p l b ⟨s * 128 + l.val, hj⟩ hp hi,
    lam_blk m c ⟨n, hn⟩ q l k ⟨s * 128 + l.val, hj⟩ hq hi, gam_blk m c ⟨n, hn⟩ q l k ⟨s * 128 + l.val, hj⟩ hq hi,
    sign_blk m c ⟨n, hn⟩ q l k ⟨s * 128 + l.val, hj⟩ hq hi]

/-- The array the kernel leaves as its first result is out_re. -/
theorem G5_eq (c : Dev nD) :
    Value.G5 m c = outRe (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have hi0 : (i 0).val < 128 := (i 0).isLt
  have hi1 : (i 1).val < 512 := (i 1).isLt
  have hN : cfg0.N = 64 := N_0
  have hr : Value.run5Of i = 4 * ((i 0).val / 32) + (i 1).val / 128 := by
    show 4 * ((i 0).val / 32 - 0) + 1 * ((i 1).val / 128 - 0) = _
    omega
  have hrun : 4 * Value.run5Of i + 3 < cfg0.N := by rw [hr, hN]; omega
  have hl : Value.loc5Of i = ix2 (⟨(i 0).val % 32, Nat.mod_lt _ (by decide)⟩ : Fin 32) (⟨(i 1).val % 128, Nat.mod_lt _ (by decide)⟩ : Fin 128) :=
    funext fun a => by match a with | ⟨0, _⟩ => rfl | ⟨1, _⟩ => rfl
  unfold Value.G5
  rw [dif_pos hrun, hl, fold5_apply m c _ hrun, zero_add]
  show _ = outReAt _ _ _ _ _ (i 0) (i 1)
  unfold outReAt
  rw [sum_512_as_blocks]
  refine Finset.sum_congr rfl fun s hs => ?_
  have hs4 : s < 4 := Finset.mem_range.mp hs
  exact reAdd_at m c (i 0) (i 1) (4 * Value.run5Of i + s) s (by rw [hr, hN]; omega) _ _
    (by show (i 0).val = 32 * ((4 * Value.run5Of i + s) / 16) + (i 0).val % 32; rw [hr]; omega)
    (by show (i 1).val = 128 * ((4 * Value.run5Of i + s) / 4 % 4) + (i 1).val % 128; rw [hr]; omega)
    (by rw [hr]; omega)

/-! ## The imaginary part -/

/-- Step n's addend to its out_im block: its partial sum, and zero for a number past the grid. -/
def imAdd (c : Dev nD) (n : ℕ) (y : S32x128.Idx) : EReal :=
  if h : n < cfg0.N then
    k0_pay11 (F := Ideal) (iblk m c 0 ⟨n, h⟩) (iblk m c 1 ⟨n, h⟩) (iblk m c 2 ⟨n, h⟩) (iblk m c 3 ⟨n, h⟩) (iblk m c 4 ⟨n, h⟩) y
  else 0

/-- A run's first step leaves zero plus its addend. -/
theorem reset6_apply (c : Dev nD) (b : ℕ) (h : b < cfg0.N) (y : S32x128.Idx) :
    Value.reset6 m c b h y = 0 + imAdd m c b y := by
  unfold Value.reset6 imAdd k0_pay2 k0_pay4
  rw [dif_pos h]
  dsimp only
  rw [addf_apply, shapeCast_self]
  show Ideal.ofBits .f32 0x00000000#32 + _ = _
  rw [Ideal.ofBits_zero_f32]

/-- A later step leaves what it found plus its addend. -/
theorem step6_apply (c : Dev nD) (n : ℕ) (h : n < cfg0.N) (acc : Vec Ideal S32x128 .f32) (y : S32x128.Idx) :
    Value.step6 m c n h acc y = acc y + imAdd m c n y := by
  unfold Value.step6 imAdd k0_pay2
  rw [dif_pos h]
  rw [addf_apply, shapeCast_self]

/-- After a run's four steps the block holds zero plus the four addends. -/
theorem fold6_apply (c : Dev nD) (b : ℕ) (h : b + 3 < cfg0.N) (y : S32x128.Idx) :
    Pipeline.accAt (Value.reset6 m c) (Value.step6 m c) b 3 h y = 0 + ∑ s ∈ Finset.range 4, imAdd m c (b + s) y :=
  Pipeline.accAt_add_apply (ι := S32x128.Idx) (β := EReal) (Value.reset6 m c) (Value.step6 m c) (fun _ => 0) (imAdd m c) b 3
    (fun hb y => reset6_apply m c b hb y) (fun n hn acc y _ _ => step6_apply m c n hn acc y) 3 le_rfl h y

/-- Input column j's term of out_im[b, k], as a function of every natural (zero past the last column). -/
def imCol (c : Dev nD) (b : Fin 128) (k : Fin 512) (j : ℕ) : EReal :=
  if h : j < 512 then
    imTerm (sign (m ((c : Thread nD τ).loc main_arg4) (ix2 k ⟨j, h⟩))) (m ((c : Thread nD τ).loc main_arg0) (ix2 b ⟨j, h⟩)) (m ((c : Thread nD τ).loc main_arg1) (ix2 b ⟨j, h⟩))
      (m ((c : Thread nD τ).loc main_arg2) (ix2 k ⟨j, h⟩)) (m ((c : Thread nD τ).loc main_arg3) (ix2 k ⟨j, h⟩))
  else 0

/-- The same step's addend for the imaginary part: the sum of the column terms over its 128 input columns. -/
theorem imAdd_at (c : Dev nD) (b : Fin 128) (k : Fin 512) (n s : ℕ) (hn : n < cfg0.N) (p : Fin 32) (q : Fin 128)
    (hp : b.val = 32 * (n / 16) + p.val) (hq : k.val = 128 * (n / 4 % 4) + q.val) (hs : n % 4 = s) :
    imAdd m c n (ix2 p q) = ∑ l ∈ Finset.range 128, imCol m c b k (s * 128 + l) := by
  unfold imAdd
  rw [dif_pos hn]
  refine (imPart_at (iblk m c 0 ⟨n, hn⟩) (iblk m c 1 ⟨n, hn⟩) (iblk m c 2 ⟨n, hn⟩) (iblk m c 3 ⟨n, hn⟩) (iblk m c 4 ⟨n, hn⟩) p q).trans ?_
  refine Eq.trans ?_ (Fin.sum_univ_eq_sum_range (fun l => imCol m c b k (s * 128 + l)) 128)
  refine Finset.sum_congr rfl fun l _ => ?_
  have hl : l.val < 128 := l.isLt
  have hs4 : s < 4 := by omega
  have hj : s * 128 + l.val < 512 := by omega
  unfold imCol
  rw [dif_pos hj]
  have hi : (⟨s * 128 + l.val, hj⟩ : Fin 512).val = 128 * ((⟨n, hn⟩ : Fin cfg0.N).val % 4) + l.val := by
    show s * 128 + l.val = 128 * (n % 4) + l.val
    omega
  rw [xr_blk m c ⟨n, hn⟩ p l b ⟨s * 128 + l.val, hj⟩ hp hi, xi_blk m c ⟨n, hn⟩ p l b ⟨s * 128 + l.val, hj⟩ hp hi,
    lam_blk m c ⟨n, hn⟩ q l k ⟨s * 128 + l.val, hj⟩ hq hi, gam_blk m c ⟨n, hn⟩ q l k ⟨s * 128 + l.val, hj⟩ hq hi,
    sign_blk m c ⟨n, hn⟩ q l k ⟨s * 128 + l.val, hj⟩ hq hi]

/-- The array the kernel leaves as its second result is out_im. -/
theorem G6_eq (c : Dev nD) :
    Value.G6 m c = outIm (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have hi0 : (i 0).val < 128 := (i 0).isLt
  have hi1 : (i 1).val < 512 := (i 1).isLt
  have hN : cfg0.N = 64 := N_0
  have hr : Value.run6Of i = 4 * ((i 0).val / 32) + (i 1).val / 128 := by
    show 4 * ((i 0).val / 32 - 0) + 1 * ((i 1).val / 128 - 0) = _
    omega
  have hrun : 4 * Value.run6Of i + 3 < cfg0.N := by rw [hr, hN]; omega
  have hl : Value.loc6Of i = ix2 (⟨(i 0).val % 32, Nat.mod_lt _ (by decide)⟩ : Fin 32) (⟨(i 1).val % 128, Nat.mod_lt _ (by decide)⟩ : Fin 128) :=
    funext fun a => by match a with | ⟨0, _⟩ => rfl | ⟨1, _⟩ => rfl
  unfold Value.G6
  rw [dif_pos hrun, hl, fold6_apply m c _ hrun, zero_add]
  show _ = outImAt _ _ _ _ _ (i 0) (i 1)
  unfold outImAt
  rw [sum_512_as_blocks]
  refine Finset.sum_congr rfl fun s hs => ?_
  have hs4 : s < 4 := Finset.mem_range.mp hs
  exact imAdd_at m c (i 0) (i 1) (4 * Value.run6Of i + s) s (by rw [hr, hN]; omega) _ _
    (by show (i 0).val = 32 * ((4 * Value.run6Of i + s) / 16) + (i 0).val % 32; rw [hr]; omega)
    (by show (i 1).val = 128 * ((4 * Value.run6Of i + s) / 4 % 4) + (i 1).val % 128; rw [hr]; omega)
    (by rw [hr]; omega)

end Cert.KernelIdeal.Fold

end
-- ==== Proof.RefRead.lean ====
/-
  The plain program's two results, read entry by entry.  It scales both tables by dividing by 2²⁰, lays x out as
  [128, 1, 512] and the tables as [1, 512, 512], forms the three shears in the full [128, 512, 512] box, multiplies by
  the sign the flag table selects, and sums the box along its last axis from zero.  At (b, k) that is the sum over the
  512 input columns of the rotation's term, with the quotient by 2²⁰ read as the product with 2⁻²⁰.
-/
import proofs.«102555_j7249904795701_1_alg».proof.Proof.Gen.ReferenceIdeal.Read
import proofs.«102555_j7249904795701_1_alg».proof.Proof.Shear
import Idealize.ShloMosaic.Lib.ValueIdx
import Idealize.ShloMosaic.PureOps.Ideal.Laws

noncomputable section

namespace Cert.ReferenceIdeal.Lift

open Cert.ReferenceIdeal Cert.ReferenceIdeal.Gen Cert.ReferenceIdeal.Read Idealize.ShloMosaic Idealize.ShloMosaic.ValueIdx
open Cert.Shear

/-- The first result is out_re. -/
theorem re_eq (x0 x1 : (⟨S128x512, .f32⟩ : BufTy).Contents (Elt Ideal)) (x2 x3 : (⟨S512x512, .f32⟩ : BufTy).Contents (Elt Ideal))
    (x4 : (⟨S512x512, .i1⟩ : BufTy).Contents (Elt Ideal)) :
    val_main_v26 (F := Ideal) x0 x1 x2 x3 x4 = outRe x0 x1 x2 x3 x4 := by
  funext j
  obtain ⟨b, k, rfl⟩ : ∃ (b : Fin 128) (k : Fin 512), j = ix2 b k := ⟨j 0, j 1, eq_ix2 j⟩
  rw [val_main_v26_apply]
  show _ = outReAt x0 x1 x2 x3 x4 b k
  unfold outReAt
  rw [val_main_cst_3_apply, Ideal.ofBits_def, Ideal.ofBits_zero_f32, zero_add]
  refine Finset.sum_congr rfl fun i _ => ?_
  -- every operand of the box at (b, k, i) is an argument at (b, i) or (k, i)
  have eA : idx_main_v4 (idx_main_v10 (idx_main_v26 (ix2 b k) i)) = ix2 b i := funext fun a => Fin.ext (by match a with | ⟨0, _⟩ => rfl | ⟨1, _⟩ => rfl)
  have eB : idx_main_v5 (idx_main_v7 (idx_main_v26 (ix2 b k) i)) = ix2 b i := funext fun a => Fin.ext (by match a with | ⟨0, _⟩ => rfl | ⟨1, _⟩ => rfl)
  have eC : idx_main_v5 (idx_main_v15 (idx_main_v26 (ix2 b k) i)) = ix2 b i := funext fun a => Fin.ext (by match a with | ⟨0, _⟩ => rfl | ⟨1, _⟩ => rfl)
  have eL : idx_main_v6 (idx_main_v8 (idx_main_v26 (ix2 b k) i)) = ix2 k i := funext fun a => Fin.ext (by match a with | ⟨0, _⟩ => rfl | ⟨1, _⟩ => rfl)
  have eM : idx_main_v17 (idx_main_v18 (idx_main_v26 (ix2 b k) i)) = ix2 k i := funext fun a => Fin.ext (by match a with | ⟨0, _⟩ => rfl | ⟨1, _⟩ => rfl)
  have eG : idx_main_v12 (idx_main_v13 (idx_main_v26 (ix2 b k) i)) = ix2 k i := funext fun a => Fin.ext (by match a with | ⟨0, _⟩ => rfl | ⟨1, _⟩ => rfl)
  have eS : idx_main_v23 (idx_main_v24 (idx_main_v26 (ix2 b k) i)) = ix2 k i := funext fun a => Fin.ext (by match a with | ⟨0, _⟩ => rfl | ⟨1, _⟩ => rfl)
  simp only [val_main_v25_apply, val_main_v24_apply, val_main_v23_apply, val_main_v22_apply, val_main_v21_apply,
    val_main_call0_v0_apply, val_main_call0_v1_apply, val_main_cst_1_apply, val_main_cst_2_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply]
  simp only [eA, eB, eC, eL, eM, eG, eS, Ideal.mulf_def, Ideal.addf_def, Ideal.hostDivf_def, Ideal.ofBits_def, div_two_pow_20]
  rfl

/-- The second result is out_im. -/
theorem im_eq (x0 x1 : (⟨S128x512, .f32⟩ : BufTy).Contents (Elt Ideal)) (x2 x3 : (⟨S512x512, .f32⟩ : BufTy).Contents (Elt Ideal))
    (x4 : (⟨S512x512, .i1⟩ : BufTy).Contents (Elt Ideal)) :
    val_main_v30 (F := Ideal) x0 x1 x2 x3 x4 = outIm x0 x1 x2 x3 x4 := by
  funext j
  obtain ⟨b, k, rfl⟩ : ∃ (b : Fin 128) (k : Fin 512), j = ix2 b k := ⟨j 0, j 1, eq_ix2 j⟩
  rw [val_main_v30_apply]
  show _ = outImAt x0 x1 x2 x3 x4 b k
  unfold outImAt
  rw [val_main_cst_4_apply, Ideal.ofBits_def, Ideal.ofBits_zero_f32, zero_add]
  refine Finset.sum_congr rfl fun i _ => ?_
  have eA : idx_main_v4 (idx_main_v10 (idx_main_v30 (ix2 b k) i)) = ix2 b i := funext fun a => Fin.ext (by match a with | ⟨0, _⟩ => rfl | ⟨1, _⟩ => rfl)
  have eB : idx_main_v5 (idx_main_v7 (idx_main_v30 (ix2 b k) i)) = ix2 b i := funext fun a => Fin.ext (by match a with | ⟨0, _⟩ => rfl | ⟨1, _⟩ => rfl)
  have eC : idx_main_v5 (idx_main_v15 (idx_main_v30 (ix2 b k) i)) = ix2 b i := funext fun a => Fin.ext (by match a with | ⟨0, _⟩ => rfl | ⟨1, _⟩ => rfl)
  have eL : idx_main_v6 (idx_main_v8 (idx_main_v30 (ix2 b k) i)) = ix2 k i := funext fun a => Fin.ext (by match a with | ⟨0, _⟩ => rfl | ⟨1, _⟩ => rfl)
  have eG : idx_main_v12 (idx_main_v13 (idx_main_v30 (ix2 b k) i)) = ix2 k i := funext fun a => Fin.ext (by match a with | ⟨0, _⟩ => rfl | ⟨1, _⟩ => rfl)
  have eS : idx_main_v27 (idx_main_v28 (idx_main_v30 (ix2 b k) i)) = ix2 k i := funext fun a => Fin.ext (by match a with | ⟨0, _⟩ => rfl | ⟨1, _⟩ => rfl)
  simp only [val_main_v29_apply, val_main_v28_apply, val_main_v27_apply, val_main_v24_apply, val_main_v23_apply, val_main_v22_apply, val_main_v21_apply,
    val_main_call0_v0_apply, val_main_call0_v1_apply, val_main_cst_1_apply, val_main_cst_2_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply]
  simp only [eA, eB, eC, eL, eG, eS, Ideal.mulf_def, Ideal.addf_def, Ideal.hostDivf_def, Ideal.ofBits_def, div_two_pow_20]
  rfl

end Cert.ReferenceIdeal.Lift

end
-- ==== Proof.lean ====
/-
  A bank of 512 × 512 three-shear rotations applied to 128 complex rows and summed over the input columns:
      out_re[b,k] = Σ_i s[k,i] · x₂(b,k,i),    out_im[b,k] = Σ_i s[k,i] · y₁(b,k,i),
  with x₁ = xr + xi·L, y₁ = xi + x₁·G, x₂ = x₁ + y₁·L at (xr, xi) = (x_re[b,i], x_im[b,i]), the coefficients
  L = lam[k,i] · 2⁻²⁰ and G = gam[k,i] · 2⁻²⁰, and s = −1 where the flag table is set, +1 elsewhere (Proof/Shear.lean).

  The tiled program computes both sums block by block: a 4 × 4 × 4 grid over 32 rows, 128 output columns and 128 input
  columns, the result block zeroed at the first input-column block and added to at each of the four
  (Proof/Step.lean: one step's partial sums entry by entry; Proof/Blocks.lean: which array entries a step sees;
  Proof/Fold.lean: four steps' partial sums are the whole sum).  The plain program forms the full
  [128, 512, 512] box and sums its last axis, scaling the tables by a division by 2²⁰ (Proof/RefRead.lean).  Over the
  extended reals the two agree at every (b, k): the quotient by 2²⁰ is the product with 2⁻²⁰, and regrouping a sum
  into four consecutive blocks changes nothing.  Neither law needs the inputs finite, so the precondition is never opened.
-/
import proofs.«102555_j7249904795701_1_alg».proof.Defs
import proofs.«102555_j7249904795701_1_alg».proof.Proof.Gen.Kernel
import proofs.«102555_j7249904795701_1_alg».proof.Proof.Gen.Kernel.Skeleton
import proofs.«102555_j7249904795701_1_alg».proof.Proof.Gen.Kernel.Launch
import proofs.«102555_j7249904795701_1_alg».proof.Proof.Gen.Kernel.Points
import proofs.«102555_j7249904795701_1_alg».proof.Proof.Gen.Kernel.Frame
import proofs.«102555_j7249904795701_1_alg».proof.Proof.Gen.KernelIdeal
import proofs.«102555_j7249904795701_1_alg».proof.Proof.Gen.KernelIdeal.Skeleton
import proofs.«102555_j7249904795701_1_alg».proof.Proof.Gen.KernelIdeal.Launch
import proofs.«102555_j7249904795701_1_alg».proof.Proof.Gen.KernelIdeal.Points
import proofs.«102555_j7249904795701_1_alg».proof.Proof.Gen.KernelIdeal.Frame
import proofs.«102555_j7249904795701_1_alg».proof.Proof.Gen.ReferenceIdeal
import proofs.«102555_j7249904795701_1_alg».proof.Proof.Gen.Pre_finite_inputs
import proofs.«102555_j7249904795701_1_alg».proof.Proof.Gen.KernelIdeal.Value
import proofs.«102555_j7249904795701_1_alg».proof.Proof.Gen.ReferenceIdeal.Run
import proofs.«102555_j7249904795701_1_alg».proof.Proof.Gen.ReferenceIdeal.Read
import proofs.«102555_j7249904795701_1_alg».proof.Proof.Fold
import proofs.«102555_j7249904795701_1_alg».proof.Proof.RefRead
import Idealize.ShloMosaic.Adequacy
import Idealize.ShloMosaic.Init

noncomputable section

namespace Cert.Proof

open Idealize.ShloMosaic Idealize.SL.Sem

/-- Both programs run and leave out_re and out_im of their arguments; the arguments agree, so the results do.
    The tiled program's frames are its runs; the plain program's frame is its run with the results dropped; the
    idealized tiled program is the tiled program's own text, so there is nothing to preserve. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun _ h c => (h c).2.2)
      (Cert.ReferenceIdeal.Value.run (F := Ideal) m ρ)
  · intro m ρ m' ρ' _ hagree
    refine ⟨fun c => Cert.KernelIdeal.Value.G5 m c, fun c => Cert.KernelIdeal.Value.G6 m c,
      Cert.KernelIdeal.Value.run (F := Ideal) m ρ, ?_⟩
    refine (θ_run Cert.ReferenceIdeal.defs _ _).mono
      (fun _ h c => ⟨(h c).1.trans ?_, (h c).2.1.trans ?_, (h c).2.2⟩)
      (Cert.ReferenceIdeal.Value.run (F := Ideal) m' ρ')
    · show _ = Cert.KernelIdeal.Value.G5 m c
      rw [Cert.ReferenceIdeal.Read.val_main_v26_eq, Cert.ReferenceIdeal.Lift.re_eq, Cert.KernelIdeal.Fold.G5_eq,
        (hagree c).1, (hagree c).2.1, (hagree c).2.2.1, (hagree c).2.2.2.1, (hagree c).2.2.2.2]
    · show _ = Cert.KernelIdeal.Value.G6 m c
      rw [Cert.ReferenceIdeal.Read.val_main_v30_eq, Cert.ReferenceIdeal.Lift.im_eq, Cert.KernelIdeal.Fold.G6_eq,
        (hagree c).1, (hagree c).2.1, (hagree c).2.2.1, (hagree c).2.2.2.1, (hagree c).2.2.2.2]⟩

end Cert.Proof

end
